-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x12 : Shape := ⟨2, ![8192, 12]⟩
abbrev S512x1 : Shape := ⟨2, ![512, 1]⟩
abbrev S512x12 : Shape := ⟨2, ![512, 12]⟩
abbrev S512x144 : Shape := ⟨2, ![512, 144]⟩
abbrev S512x1728 : Shape := ⟨2, ![512, 1728]⟩
abbrev S512x20736 : Shape := ⟨2, ![512, 20736]⟩
abbrev S_ : Shape := ⟨0, ![]⟩

class Facts : Prop where
  bcast_S_S8192x12 : S_.BroadcastsInDim S8192x12 (![] : Fin 0 → Fin S8192x12.rank)
  reducesTo_S8192x12_S_d0_1 : S8192x12.ReducesTo [0, 1] S_
  h_S_ : 0 < S_.numel
  bcast_S_S512x1 : S_.BroadcastsInDim S512x1 (![] : Fin 0 → Fin S512x1.rank)
  reducesTo_S512x1_S_d0_1 : S512x1.ReducesTo [0, 1] S_
  bcast_S_S512x12 : S_.BroadcastsInDim S512x12 (![] : Fin 0 → Fin S512x12.rank)
  reducesTo_S512x12_S_d0_1 : S512x12.ReducesTo [0, 1] S_
  bcast_S_S512x144 : S_.BroadcastsInDim S512x144 (![] : Fin 0 → Fin S512x144.rank)
  reducesTo_S512x144_S_d0_1 : S512x144.ReducesTo [0, 1] S_
  bcast_S_S512x1728 : S_.BroadcastsInDim S512x1728 (![] : Fin 0 → Fin S512x1728.rank)
  reducesTo_S512x1728_S_d0_1 : S512x1728.ReducesTo [0, 1] S_
  bcast_S_S512x20736 : S_.BroadcastsInDim S512x20736 (![] : Fin 0 → Fin S512x20736.rank)
  reducesTo_S512x20736_S_d0_1 : S512x20736.ReducesTo [0, 1] S_

variable [Facts]

def fn_part1 {F : FTy → Type} [FloatOps F] (main_arg4 : FVec F S512x1728 .f32) (main_arg5 : FVec F S512x20736 .f32) (main_v13 : IVec S_ 1) (main_v16 : IVec S512x144 1) : IVec S_ 1 :=
  let main_c_5 : IVec S_ 1 := constantI S_ 1 1#1
  let main_v17 : IVec S_ 1 := (fun x v => Host.reduce IntOp.andi x v reducesTo_S512x144_S_d0_1 h_S_) main_v16 main_c_5
  let main_v18 : IVec S_ 1 := andi main_v13 main_v17
  let main_v19 : FVec F S512x1728 .f32 := Host.absf main_arg4
  let main_cst_6 : FVec F S_ .f32 := constant S_ .f32 0x7F800000#32
  let main_v20 : FVec F S512x1728 .f32 := broadcastInDim S512x1728 ![] bcast_S_S512x1728 main_cst_6
  let main_v21 : IVec S512x1728 1 := cmpf .olt main_v19 main_v20
  let main_c_7 : IVec S_ 1 := constantI S_ 1 1#1
  let main_v22 : IVec S_ 1 := (fun x v => Host.reduce IntOp.andi x v reducesTo_S512x1728_S_d0_1 h_S_) main_v21 main_c_7
  let main_v23 : IVec S_ 1 := andi main_v18 main_v22
  let main_v24 : FVec F S512x20736 .f32 := Host.absf main_arg5
  let main_cst_8 : FVec F S_ .f32 := constant S_ .f32 0x7F800000#32
  let main_v25 : FVec F S512x20736 .f32 := broadcastInDim S512x20736 ![] bcast_S_S512x20736 main_cst_8
  let main_v26 : IVec S512x20736 1 := cmpf .olt main_v24 main_v25
  let main_c_9 : IVec S_ 1 := constantI S_ 1 1#1
  let main_v27 : IVec S_ 1 := (fun x v => Host.reduce IntOp.andi x v reducesTo_S512x20736_S_d0_1 h_S_) main_v26 main_c_9
  let main_v28 : IVec S_ 1 := andi main_v23 main_v27
  main_v28

def fn {F : FTy → Type} [FloatOps F] (main_arg0 : FVec F S8192x12 .f32) (main_arg1 : FVec F S512x1 .f32) (main_arg2 : FVec F S512x12 .f32) (main_arg3 : FVec F S512x144 .f32) (main_arg4 : FVec F S512x1728 .f32) (main_arg5 : FVec F S512x20736 .f32) : IVec S_ 1 :=
  let main_v0 : FVec F S8192x12 .f32 := Host.absf main_arg0
  let main_cst : FVec F S_ .f32 := constant S_ .f32 0x7F800000#32
  let main_v1 : FVec F S8192x12 .f32 := broadcastInDim S8192x12 ![] bcast_S_S8192x12 main_cst
  let main_v2 : IVec S8192x12 1 := cmpf .olt main_v0 main_v1
  let main_c : IVec S_ 1 := constantI S_ 1 1#1
  let main_v3 : IVec S_ 1 := (fun x v => Host.reduce IntOp.andi x v reducesTo_S8192x12_S_d0_1 h_S_) main_v2 main_c
  let main_v4 : FVec F S512x1 .f32 := Host.absf main_arg1
  let main_cst_0 : FVec F S_ .f32 := constant S_ .f32 0x7F800000#32
  let main_v5 : FVec F S512x1 .f32 := broadcastInDim S512x1 ![] bcast_S_S512x1 main_cst_0
  let main_v6 : IVec S512x1 1 := cmpf .olt main_v4 main_v5
  let main_c_1 : IVec S_ 1 := constantI S_ 1 1#1
  let main_v7 : IVec S_ 1 := (fun x v => Host.reduce IntOp.andi x v reducesTo_S512x1_S_d0_1 h_S_) main_v6 main_c_1
  let main_v8 : IVec S_ 1 := andi main_v3 main_v7
  let main_v9 : FVec F S512x12 .f32 := Host.absf main_arg2
  let main_cst_2 : FVec F S_ .f32 := constant S_ .f32 0x7F800000#32
  let main_v10 : FVec F S512x12 .f32 := broadcastInDim S512x12 ![] bcast_S_S512x12 main_cst_2
  let main_v11 : IVec S512x12 1 := cmpf .olt main_v9 main_v10
  let main_c_3 : IVec S_ 1 := constantI S_ 1 1#1
  let main_v12 : IVec S_ 1 := (fun x v => Host.reduce IntOp.andi x v reducesTo_S512x12_S_d0_1 h_S_) main_v11 main_c_3
  let main_v13 : IVec S_ 1 := andi main_v8 main_v12
  let main_v14 : FVec F S512x144 .f32 := Host.absf main_arg3
  let main_cst_4 : FVec F S_ .f32 := constant S_ .f32 0x7F800000#32
  let main_v15 : FVec F S512x144 .f32 := broadcastInDim S512x144 ![] bcast_S_S512x144 main_cst_4
  let main_v16 : IVec S512x144 1 := cmpf .olt main_v14 main_v15
  fn_part1 (F := F) main_arg4 main_arg5 main_v13 main_v16
-- ==== Kernel.lean ====
abbrev S8192x12 : Shape := ⟨2, ![8192, 12]⟩
abbrev S512x1 : Shape := ⟨2, ![512, 1]⟩
abbrev S512x12 : Shape := ⟨2, ![512, 12]⟩
abbrev S512x144 : Shape := ⟨2, ![512, 144]⟩
abbrev S512x1728 : Shape := ⟨2, ![512, 1728]⟩
abbrev S512x20736 : Shape := ⟨2, ![512, 20736]⟩
abbrev S1x512 : Shape := ⟨2, ![1, 512]⟩
abbrev S12x512 : Shape := ⟨2, ![12, 512]⟩
abbrev S144x512 : Shape := ⟨2, ![144, 512]⟩
abbrev S1728x512 : Shape := ⟨2, ![1728, 512]⟩
abbrev S20736x512 : Shape := ⟨2, ![20736, 512]⟩
abbrev S8192x512 : Shape := ⟨2, ![8192, 512]⟩
abbrev S64x12 : Shape := ⟨2, ![64, 12]⟩
abbrev S64x512 : Shape := ⟨2, ![64, 512]⟩
abbrev S64x1 : Shape := ⟨2, ![64, 1]⟩
abbrev S64x144 : Shape := ⟨2, ![64, 144]⟩
abbrev S64x1728 : Shape := ⟨2, ![64, 1728]⟩
abbrev S64x20736 : Shape := ⟨2, ![64, 20736]⟩

abbrev nBuf : Space → Nat
  | .hbm => 16
  | .vmem => 9
  | .smem => 0
  | _ => 0

abbrev bufTy : (tb : Table) → Fin (tcTables nBuf tb) → BufTy
  | .hbm, ⟨0, _⟩ => ⟨S8192x12, .f32⟩
  | .hbm, ⟨1, _⟩ => ⟨S512x1, .f32⟩
  | .hbm, ⟨2, _⟩ => ⟨S512x12, .f32⟩
  | .hbm, ⟨3, _⟩ => ⟨S512x144, .f32⟩
  | .hbm, ⟨4, _⟩ => ⟨S512x1728, .f32⟩
  | .hbm, ⟨5, _⟩ => ⟨S512x20736, .f32⟩
  | .hbm, ⟨6, _⟩ => ⟨S1x512, .f32⟩
  | .hbm, ⟨7, _⟩ => ⟨S12x512, .f32⟩
  | .hbm, ⟨8, _⟩ => ⟨S12x512, .bf16⟩
  | .hbm, ⟨9, _⟩ => ⟨S144x512, .f32⟩
  | .hbm, ⟨10, _⟩ => ⟨S144x512, .bf16⟩
  | .hbm, ⟨11, _⟩ => ⟨S1728x512, .f32⟩
  | .hbm, ⟨12, _⟩ => ⟨S1728x512, .bf16⟩
  | .hbm, ⟨13, _⟩ => ⟨S20736x512, .f32⟩
  | .hbm, ⟨14, _⟩ => ⟨S20736x512, .bf16⟩
  | .hbm, ⟨15, _⟩ => ⟨S8192x512, .f32⟩
  | .local _ .vmem, ⟨0, _⟩ => ⟨S64x12, .f32⟩
  | .local _ .vmem, ⟨1, _⟩ => ⟨S64x12, .f32⟩
  | .local _ .vmem, ⟨2, _⟩ => ⟨S1x512, .f32⟩
  | .local _ .vmem, ⟨3, _⟩ => ⟨S12x512, .bf16⟩
  | .local _ .vmem, ⟨4, _⟩ => ⟨S144x512, .bf16⟩
  | .local _ .vmem, ⟨5, _⟩ => ⟨S1728x512, .bf16⟩
  | .local _ .vmem, ⟨6, _⟩ => ⟨S20736x512, .bf16⟩
  | .local _ .vmem, ⟨7, _⟩ => ⟨S64x512, .f32⟩
  | .local _ .vmem, ⟨8, _⟩ => ⟨S64x512, .f32⟩
  | _, _ => ⟨S8192x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S144x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1728x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S20736x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S512x1_S1x512_1_0 : S512x1.Transposes [1, 0] S1x512
  transposes_S512x12_S12x512_1_0 : S512x12.Transposes [1, 0] S12x512
  bitsLt_bf16_f32 : FTy.bits .bf16 < FTy.bits .f32
  transposes_S512x144_S144x512_1_0 : S512x144.Transposes [1, 0] S144x512
  transposes_S512x1728_S1728x512_1_0 : S512x1728.Transposes [1, 0] S1728x512
  transposes_S512x20736_S20736x512_1_0 : S512x20736.Transposes [1, 0] S20736x512
  inb_S64x12_S64x12_0_0 : ∀ a, (![0, 0] : Fin 2 → Nat) a + S64x12.size a ≤ S64x12.size a
  h_S64x12 : 0 < S64x12.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S64x512 : S1x512.Broadcasts S64x512
  inb_S12x512_S12x512_0_0 : ∀ a, (![0, 0] : Fin 2 → Nat) a + S12x512.size a ≤ S12x512.size a
  h_S12x512 : 0 < S12x512.numel
  shapeCasts_S12x512_S12x512 : S12x512.ShapeCasts S12x512
  slices_S64x12_o0_0_S64x1 : S64x12.Slices ![0, 0] S64x1
  broadcasts_S64x1_S64x12 : S64x1.Broadcasts S64x12
  slices_S64x12_o0_1_S64x1 : S64x12.Slices ![0, 1] S64x1
  slices_S64x12_o0_2_S64x1 : S64x12.Slices ![0, 2] S64x1
  slices_S64x12_o0_3_S64x1 : S64x12.Slices ![0, 3] S64x1
  slices_S64x12_o0_4_S64x1 : S64x12.Slices ![0, 4] S64x1
  slices_S64x12_o0_5_S64x1 : S64x12.Slices ![0, 5] S64x1
  slices_S64x12_o0_6_S64x1 : S64x12.Slices ![0, 6] S64x1
  slices_S64x12_o0_7_S64x1 : S64x12.Slices ![0, 7] S64x1
  slices_S64x12_o0_8_S64x1 : S64x12.Slices ![0, 8] S64x1
  slices_S64x12_o0_9_S64x1 : S64x12.Slices ![0, 9] S64x1
  slices_S64x12_o0_10_S64x1 : S64x12.Slices ![0, 10] S64x1
  slices_S64x12_o0_11_S64x1 : S64x12.Slices ![0, 11] S64x1
  concatenates_S64x12_S64x12_S64x12_S64x12_S64x12_S64x12_S64x12_S64x12_S64x12_S64x12_S64x12_S64x12_S64x144_d1 : Shape.Concatenates [S64x12, S64x12, S64x12, S64x12, S64x12, S64x12, S64x12, S64x12, S64x12, S64x12, S64x12, S64x12] S64x144 1
  inb_S144x512_S144x512_0_0 : ∀ a, (![0, 0] : Fin 2 → Nat) a + S144x512.size a ≤ S144x512.size a
  h_S144x512 : 0 < S144x512.numel
  shapeCasts_S144x512_S144x512 : S144x512.ShapeCasts S144x512
  broadcasts_S64x1_S64x144 : S64x1.Broadcasts S64x144
  concatenates_S64x144_S64x144_S64x144_S64x144_S64x144_S64x144_S64x144_S64x144_S64x144_S64x144_S64x144_S64x144_S64x1728_d1 : Shape.Concatenates [S64x144, S64x144, S64x144, S64x144, S64x144, S64x144, S64x144, S64x144, S64x144, S64x144, S64x144, S64x144] S64x1728 1
  inb_S1728x512_S1728x512_0_0 : ∀ a, (![0, 0] : Fin 2 → Nat) a + S1728x512.size a ≤ S1728x512.size a
  h_S1728x512 : 0 < S1728x512.numel
  shapeCasts_S1728x512_S1728x512 : S1728x512.ShapeCasts S1728x512
  broadcasts_S64x1_S64x1728 : S64x1.Broadcasts S64x1728
  concatenates_S64x1728_S64x1728_S64x1728_S64x1728_S64x1728_S64x1728_S64x1728_S64x1728_S64x1728_S64x1728_S64x1728_S64x1728_S64x20736_d1 : Shape.Concatenates [S64x1728, S64x1728, S64x1728, S64x1728, S64x1728, S64x1728, S64x1728, S64x1728, S64x1728, S64x1728, S64x1728, S64x1728] S64x20736 1
  inb_S20736x512_S20736x512_0_0 : ∀ a, (![0, 0] : Fin 2 → Nat) a + S20736x512.size a ≤ S20736x512.size a
  h_S20736x512 : 0 < S20736x512.numel
  shapeCasts_S20736x512_S20736x512 : S20736x512.ShapeCasts S20736x512
  inb_S64x512_S64x512_0_0 : ∀ a, (![0, 0] : Fin 2 → Nat) a + S64x512.size a ≤ S64x512.size a
  h_S64x512 : 0 < S64x512.numel
  dot_S64x12_S12x512_S64x512_1_0_0_1_n_n_wf : DotDims.WF S64x12 S12x512 S64x512 [1] [0] [0] [1] [] []
  dot_S64x144_S144x512_S64x512_1_0_0_1_n_n_wf : DotDims.WF S64x144 S144x512 S64x512 [1] [0] [0] [1] [] []
  dot_S64x1728_S1728x512_S64x512_1_0_0_1_n_n_wf : DotDims.WF S64x1728 S1728x512 S64x512 [1] [0] [0] [1] [] []
  dot_S64x20736_S20736x512_S64x512_1_0_0_1_n_n_wf : DotDims.WF S64x20736 S20736x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x12.size a ≤ S8192x12.size a
  hwx0_0 : ∀ i : grid0.Coords, EltTy.bits .f32 = 32 ∨ (Rect.block (s := S8192x12) S64x12.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x512.size a ≤ S12x512.size a
  hwx0_2 : ∀ i : grid0.Coords, EltTy.bits .bf16 = 32 ∨ (Rect.block (s := S12x512) S12x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S144x512.size a ≤ S144x512.size a
  hwx0_3 : ∀ i : grid0.Coords, EltTy.bits .bf16 = 32 ∨ (Rect.block (s := S144x512) S144x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1728x512.size a ≤ S1728x512.size a
  hwx0_4 : ∀ i : grid0.Coords, EltTy.bits .bf16 = 32 ∨ (Rect.block (s := S1728x512) S1728x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S20736x512.size a ≤ S20736x512.size a
  hwx0_5 : ∀ i : grid0.Coords, EltTy.bits .bf16 = 32 ∨ (Rect.block (s := S20736x512) S20736x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x512.size a ≤ S8192x512.size a
  hwx0_6 : ∀ i : grid0.Coords, EltTy.bits .f32 = 32 ∨ (Rect.block (s := S8192x512) S64x512.size (cc0_transform_6 i) (hinb0_6 i)).WholeWords (EltTy.packing .f32)

variable [Facts₀]

def dot_S64x12_S12x512_S64x512_1_0_0_1_n_n : DotDims S64x12 S12x512 S64x512 where
  lhsContracting := [1]
  rhsContracting := [0]
  lhsNonContracting := [0]
  rhsNonContracting := [1]
  lhsBatch := []
  rhsBatch := []
  wf := dot_S64x12_S12x512_S64x512_1_0_0_1_n_n_wf
def dot_S64x144_S144x512_S64x512_1_0_0_1_n_n : DotDims S64x144 S144x512 S64x512 where
  lhsContracting := [1]
  rhsContracting := [0]
  lhsNonContracting := [0]
  rhsNonContracting := [1]
  lhsBatch := []
  rhsBatch := []
  wf := dot_S64x144_S144x512_S64x512_1_0_0_1_n_n_wf
def dot_S64x1728_S1728x512_S64x512_1_0_0_1_n_n : DotDims S64x1728 S1728x512 S64x512 where
  lhsContracting := [1]
  rhsContracting := [0]
  lhsNonContracting := [0]
  rhsNonContracting := [1]
  lhsBatch := []
  rhsBatch := []
  wf := dot_S64x1728_S1728x512_S64x512_1_0_0_1_n_n_wf
def dot_S64x20736_S20736x512_S64x512_1_0_0_1_n_n : DotDims S64x20736 S20736x512 S64x512 where
  lhsContracting := [1]
  rhsContracting := [0]
  lhsNonContracting := [0]
  rhsNonContracting := [1]
  lhsBatch := []
  rhsBatch := []
  wf := dot_S64x20736_S20736x512_S64x512_1_0_0_1_n_n_wf

abbrev win0_0 : Pipeline.Window sig grid0 :=
  Pipeline.Window.ofSpec (Memref.whole main_arg0) S64x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S12x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S144x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1728x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S20736x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S64x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x12 : Shape := ⟨2, ![8192, 12]⟩
abbrev S512x1 : Shape := ⟨2, ![512, 1]⟩
abbrev S512x12 : Shape := ⟨2, ![512, 12]⟩
abbrev S512x144 : Shape := ⟨2, ![512, 144]⟩
abbrev S512x1728 : Shape := ⟨2, ![512, 1728]⟩
abbrev S512x20736 : Shape := ⟨2, ![512, 20736]⟩
abbrev S12x8192 : Shape := ⟨2, ![12, 8192]⟩
abbrev S_ : Shape := ⟨0, ![]⟩
abbrev S1x8192 : Shape := ⟨2, ![1, 8192]⟩
abbrev S512x8192 : Shape := ⟨2, ![512, 8192]⟩
abbrev S12x1x8192 : Shape := ⟨3, ![12, 1, 8192]⟩
abbrev S1x12x8192 : Shape := ⟨3, ![1, 12, 8192]⟩
abbrev S12x12x8192 : Shape := ⟨3, ![12, 12, 8192]⟩
abbrev S144x8192 : Shape := ⟨2, ![144, 8192]⟩
abbrev S1x144x8192 : Shape := ⟨3, ![1, 144, 8192]⟩
abbrev S12x144x8192 : Shape := ⟨3, ![12, 144, 8192]⟩
abbrev S1728x8192 : Shape := ⟨2, ![1728, 8192]⟩
abbrev S1x1728x8192 : Shape := ⟨3, ![1, 1728, 8192]⟩
abbrev S12x1728x8192 : Shape := ⟨3, ![12, 1728, 8192]⟩
abbrev S20736x8192 : Shape := ⟨2, ![20736, 8192]⟩
abbrev S8192x512 : Shape := ⟨2, ![8192, 512]⟩

abbrev nBuf : Space → Nat
  | .hbm => 37
  | .vmem => 0
  | .smem => 0
  | _ => 0

abbrev bufTy : (tb : Table) → Fin (tcTables nBuf tb) → BufTy
  | .hbm, ⟨0, _⟩ => ⟨S8192x12, .f32⟩
  | .hbm, ⟨1, _⟩ => ⟨S512x1, .f32⟩
  | .hbm, ⟨2, _⟩ => ⟨S512x12, .f32⟩
  | .hbm, ⟨3, _⟩ => ⟨S512x144, .f32⟩
  | .hbm, ⟨4, _⟩ => ⟨S512x1728, .f32⟩
  | .hbm, ⟨5, _⟩ => ⟨S512x20736, .f32⟩
  | .hbm, ⟨6, _⟩ => ⟨S12x8192, .f32⟩
  | .hbm, ⟨7, _⟩ => ⟨S_, .f32⟩
  | .hbm, ⟨8, _⟩ => ⟨S1x8192, .f32⟩
  | .hbm, ⟨9, _⟩ => ⟨S512x8192, .f32⟩
  | .hbm, ⟨10, _⟩ => ⟨S512x8192, .f32⟩
  | .hbm, ⟨11, _⟩ => ⟨S512x8192, .f32⟩
  | .hbm, ⟨12, _⟩ => ⟨S12x1x8192, .f32⟩
  | .hbm, ⟨13, _⟩ => ⟨S1x12x8192, .f32⟩
  | .hbm, ⟨14, _⟩ => ⟨S12x12x8192, .f32⟩
  | .hbm, ⟨15, _⟩ => ⟨S12x12x8192, .f32⟩
  | .hbm, ⟨16, _⟩ => ⟨S12x12x8192, .f32⟩
  | .hbm, ⟨17, _⟩ => ⟨S144x8192, .f32⟩
  | .hbm, ⟨18, _⟩ => ⟨S512x8192, .f32⟩
  | .hbm, ⟨19, _⟩ => ⟨S512x8192, .f32⟩
  | .hbm, ⟨20, _⟩ => ⟨S12x1x8192, .f32⟩
  | .hbm, ⟨21, _⟩ => ⟨S1x144x8192, .f32⟩
  | .hbm, ⟨22, _⟩ => ⟨S12x144x8192, .f32⟩
  | .hbm, ⟨23, _⟩ => ⟨S12x144x8192, .f32⟩
  | .hbm, ⟨24, _⟩ => ⟨S12x144x8192, .f32⟩
  | .hbm, ⟨25, _⟩ => ⟨S1728x8192, .f32⟩
  | .hbm, ⟨26, _⟩ => ⟨S512x8192, .f32⟩
  | .hbm, ⟨27, _⟩ => ⟨S512x8192, .f32⟩
  | .hbm, ⟨28, _⟩ => ⟨S12x1x8192, .f32⟩
  | .hbm, ⟨29, _⟩ => ⟨S1x1728x8192, .f32⟩
  | .hbm, ⟨30, _⟩ => ⟨S12x1728x8192, .f32⟩
  | .hbm, ⟨31, _⟩ => ⟨S12x1728x8192, .f32⟩
  | .hbm, ⟨32, _⟩ => ⟨S12x1728x8192, .f32⟩
  | .hbm, ⟨33, _⟩ => ⟨S20736x8192, .f32⟩
  | .hbm, ⟨34, _⟩ => ⟨S512x8192, .f32⟩
  | .hbm, ⟨35, _⟩ => ⟨S512x8192, .f32⟩
  | .hbm, ⟨36, _⟩ => ⟨S8192x512, .f32⟩
  | _, _ => ⟨S8192x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]

class Facts₀ : Prop where
  transposes_S8192x12_S12x8192_1_0 : S8192x12.Transposes [1, 0] S12x8192
  bcast_S_S1x8192 : S_.BroadcastsInDim S1x8192 (![] : Fin 0 → Fin S1x8192.rank)
  bcast_S12x8192_S12x1x8192_0_2 : S12x8192.BroadcastsInDim S12x1x8192 (![0, 2] : Fin 2 → Fin S12x1x8192.rank)
  bcast_S12x8192_S1x12x8192_1_2 : S12x8192.BroadcastsInDim S1x12x8192 (![1, 2] : Fin 2 → Fin S1x12x8192.rank)
  bcast_S12x1x8192_S12x12x8192_0_1_2 : S12x1x8192.BroadcastsInDim S12x12x8192 (![0, 1, 2] : Fin 3 → Fin S12x12x8192.rank)
  bcast_S1x12x8192_S12x12x8192_0_1_2 : S1x12x8192.BroadcastsInDim S12x12x8192 (![0, 1, 2] : Fin 3 → Fin S12x12x8192.rank)
  shapeCasts_S12x12x8192_S144x8192 : S12x12x8192.ShapeCasts S144x8192
  bcast_S144x8192_S1x144x8192_1_2 : S144x8192.BroadcastsInDim S1x144x8192 (![1, 2] : Fin 2 → Fin S1x144x8192.rank)
  bcast_S12x1x8192_S12x144x8192_0_1_2 : S12x1x8192.BroadcastsInDim S12x144x8192 (![0, 1, 2] : Fin 3 → Fin S12x144x8192.rank)
  bcast_S1x144x8192_S12x144x8192_0_1_2 : S1x144x8192.BroadcastsInDim S12x144x8192 (![0, 1, 2] : Fin 3 → Fin S12x144x8192.rank)
  shapeCasts_S12x144x8192_S1728x8192 : S12x144x8192.ShapeCasts S1728x8192
  bcast_S1728x8192_S1x1728x8192_1_2 : S1728x8192.BroadcastsInDim S1x1728x8192 (![1, 2] : Fin 2 → Fin S1x1728x8192.rank)
  bcast_S12x1x8192_S12x1728x8192_0_1_2 : S12x1x8192.BroadcastsInDim S12x1728x8192 (![0, 1, 2] : Fin 3 → Fin S12x1728x8192.rank)
  bcast_S1x1728x8192_S12x1728x8192_0_1_2 : S1x1728x8192.BroadcastsInDim S12x1728x8192 (![0, 1, 2] : Fin 3 → Fin S12x1728x8192.rank)
  shapeCasts_S12x1728x8192_S20736x8192 : S12x1728x8192.ShapeCasts S20736x8192
  transposes_S512x8192_S8192x512_1_0 : S512x8192.Transposes [1, 0] S8192x512
  dot_S512x1_S1x8192_S512x8192_1_0_0_1_n_n_wf : DotDims.WF S512x1 S1x8192 S512x8192 [1] [0] [0] [1] [] []
  dot_S512x12_S12x8192_S512x8192_1_0_0_1_n_n_wf : DotDims.WF S512x12 S12x8192 S512x8192 [1] [0] [0] [1] [] []
  dot_S512x144_S144x8192_S512x8192_1_0_0_1_n_n_wf : DotDims.WF S512x144 S144x8192 S512x8192 [1] [0] [0] [1] [] []
  dot_S512x1728_S1728x8192_S512x8192_1_0_0_1_n_n_wf : DotDims.WF S512x1728 S1728x8192 S512x8192 [1] [0] [0] [1] [] []
  dot_S512x20736_S20736x8192_S512x8192_1_0_0_1_n_n_wf : DotDims.WF S512x20736 S20736x8192 S512x8192 [1] [0] [0] [1] [] []

variable [Facts₀]

def dot_S512x1_S1x8192_S512x8192_1_0_0_1_n_n : DotDims S512x1 S1x8192 S512x8192 where
  lhsContracting := [1]
  rhsContracting := [0]
  lhsNonContracting := [0]
  rhsNonContracting := [1]
  lhsBatch := []
  rhsBatch := []
  wf := dot_S512x1_S1x8192_S512x8192_1_0_0_1_n_n_wf
def dot_S512x12_S12x8192_S512x8192_1_0_0_1_n_n : DotDims S512x12 S12x8192 S512x8192 where
  lhsContracting := [1]
  rhsContracting := [0]
  lhsNonContracting := [0]
  rhsNonContracting := [1]
  lhsBatch := []
  rhsBatch := []
  wf := dot_S512x12_S12x8192_S512x8192_1_0_0_1_n_n_wf
def dot_S512x144_S144x8192_S512x8192_1_0_0_1_n_n : DotDims S512x144 S144x8192 S512x8192 where
  lhsContracting := [1]
  rhsContracting := [0]
  lhsNonContracting := [0]
  rhsNonContracting := [1]
  lhsBatch := []
  rhsBatch := []
  wf := dot_S512x144_S144x8192_S512x8192_1_0_0_1_n_n_wf
def dot_S512x1728_S1728x8192_S512x8192_1_0_0_1_n_n : DotDims S512x1728 S1728x8192 S512x8192 where
  lhsContracting := [1]
  rhsContracting := [0]
  lhsNonContracting := [0]
  rhsNonContracting := [1]
  lhsBatch := []
  rhsBatch := []
  wf := dot_S512x1728_S1728x8192_S512x8192_1_0_0_1_n_n_wf
def dot_S512x20736_S20736x8192_S512x8192_1_0_0_1_n_n : DotDims S512x20736 S20736x8192 S512x8192 where
  lhsContracting := [1]
  rhsContracting := [0]
  lhsNonContracting := [0]
  rhsNonContracting := [1]
  lhsBatch := []
  rhsBatch := []
  wf := dot_S512x20736_S20736x8192_S512x8192_1_0_0_1_n_n_wf

class Facts : Prop extends Facts₀ where

variable [Facts]
-- ==== Proof.Monomials.lean ====
import Idealize.ShloMosaic.PureOps.Ideal.Laws
import Idealize.ShloMosaic.Lib.ValueIdx
import Idealize.ShloMosaic.Lib.Pipeline.Value

/-!
  The value both programs compute, stated with no program in sight.

  A row `r` of twelve numbers gives the rows of its monomials of degree two, three and four by the Kronecker
  recursion `z_{n+1}[i · cols + j] = r[i] · z_n[j]`: entry `k` of the next row is `r[k / cols] · z_n[k % cols]`. The
  result for that row and an output channel is the degree-zero coefficient plus, degree by degree and in that order,
  the sum over the monomials of monomial times coefficient.

  Also here: the two layout facts the kernel's body needs to reach that recursion — a column of a block sliced
  out, spread along the lanes and multiplied into another block is a row-wise scaling, and twelve such scaled copies
  laid side by side are read at lane `k` as copy `k / cols` at lane `k % cols`.
-/

open scoped BigOperators

noncomputable section

namespace Cert.PolyNet

open Idealize.ShloMosaic Idealize.ShloMosaic.ValueIdx

/-- The degree-two monomials of a row: entry `12 i + j` is `r i · r j`. -/
def mono2 (r : Fin 12 → EReal) (k : Fin 144) : EReal :=
  r ⟨k.val / 12, by have := k.isLt; omega⟩ * r ⟨k.val % 12, by omega⟩

/-- The degree-three monomials: entry `144 i + j` is `r i` times the degree-two entry `j`. -/
def mono3 (r : Fin 12 → EReal) (k : Fin 1728) : EReal :=
  r ⟨k.val / 144, by have := k.isLt; omega⟩ * mono2 r ⟨k.val % 144, by omega⟩

/-- The degree-four monomials: entry `1728 i + j` is `r i` times the degree-three entry `j`. -/
def mono4 (r : Fin 12 → EReal) (k : Fin 20736) : EReal :=
  r ⟨k.val / 1728, by have := k.isLt; omega⟩ * mono3 r ⟨k.val % 1728, by omega⟩

/-- The polynomial of a row `r` with coefficients `c0 … c4`, the degrees added in increasing order. -/
def poly (r : Fin 12 → EReal) (c0 : EReal) (c1 : Fin 12 → EReal) (c2 : Fin 144 → EReal) (c3 : Fin 1728 → EReal)
    (c4 : Fin 20736 → EReal) : EReal :=
  (((c0 + ∑ k, r k * c1 k) + ∑ k, mono2 r k * c2 k) + ∑ k, mono3 r k * c3 k) + ∑ k, mono4 r k * c4 k

/-- The whole result array: row `b`, channel `o` is the polynomial of row `b` of `x` with the coefficients row `o` of
    each weight array. -/
def G (x : (⟨2, ![8192, 12]⟩ : Shape).Idx → EReal) (w0 : (⟨2, ![512, 1]⟩ : Shape).Idx → EReal)
    (w1 : (⟨2, ![512, 12]⟩ : Shape).Idx → EReal) (w2 : (⟨2, ![512, 144]⟩ : Shape).Idx → EReal)
    (w3 : (⟨2, ![512, 1728]⟩ : Shape).Idx → EReal) (w4 : (⟨2, ![512, 20736]⟩ : Shape).Idx → EReal) :
    (⟨2, ![8192, 512]⟩ : Shape).Idx → EReal := fun j =>
  poly (fun i => x (ix2 (⟨(j 0).val, (j 0).isLt⟩ : Fin 8192) i)) (w0 (ix2 (⟨(j 1).val, (j 1).isLt⟩ : Fin 512) (0 : Fin 1)))
    (fun k => w1 (ix2 (⟨(j 1).val, (j 1).isLt⟩ : Fin 512) k)) (fun k => w2 (ix2 (⟨(j 1).val, (j 1).isLt⟩ : Fin 512) k))
    (fun k => w3 (ix2 (⟨(j 1).val, (j 1).isLt⟩ : Fin 512) k)) (fun k => w4 (ix2 (⟨(j 1).val, (j 1).isLt⟩ : Fin 512) k))

theorem G_ix2 (x : (⟨2, ![8192, 12]⟩ : Shape).Idx → EReal) (w0 : (⟨2, ![512, 1]⟩ : Shape).Idx → EReal)
    (w1 : (⟨2, ![512, 12]⟩ : Shape).Idx → EReal) (w2 : (⟨2, ![512, 144]⟩ : Shape).Idx → EReal)
    (w3 : (⟨2, ![512, 1728]⟩ : Shape).Idx → EReal) (w4 : (⟨2, ![512, 20736]⟩ : Shape).Idx → EReal)
    (b : Fin 8192) (o : Fin 512) :
    G x w0 w1 w2 w3 w4 (ix2 b o) = poly (fun i => x (ix2 b i)) (w0 (ix2 o (0 : Fin 1))) (fun k => w1 (ix2 o k))
      (fun k => w2 (ix2 o k)) (fun k => w3 (ix2 o k)) (fun k => w4 (ix2 o k)) := rfl

/-! ## A column spread along the lanes and multiplied in: a row-wise scaling -/

/-- Column `n` of a 64-row block, sliced out as a [64, 1] vector, broadcast along `N` lanes and multiplied into a
    [64, N] block `z`, read at row `p`, lane `q`: `x0[p, n] · z[p, q]`. -/
theorem scaled_apply {N : Nat} (x0 : FVec Ideal ⟨2, ![64, 12]⟩ .f32) (z : FVec Ideal ⟨2, ![64, N]⟩ .f32) (n : Nat) (hn : n < 12)
    (hs : (⟨2, ![64, 12]⟩ : Shape).Slices ![0, n] ⟨2, ![64, 1]⟩)
    (hb : (⟨2, ![64, 1]⟩ : Shape).Broadcasts ⟨2, ![64, N]⟩) (p : Fin 64) (q : Fin N) :
    mulf (broadcastTo ⟨2, ![64, N]⟩ (extractStridedSlice ⟨2, ![64, 1]⟩ ![0, n] x0 hs) hb) z (ix2 p q)
      = x0 (ix2 p (⟨n, hn⟩ : Fin 12)) * z (ix2 p q) := by
  rw [mulf_apply]
  congr 1
  refine (broadcastTo_apply _ hb (ix2 p q) (ix2 p (0 : Fin 1)) (fun a => ?_)).trans ?_
  · match a with
    | ⟨0, _⟩ => show p.val = if (64 : Nat) = 1 then 0 else p.val; rw [if_neg (by decide)]
    | ⟨1, _⟩ => show 0 = if (1 : Nat) = 1 then 0 else q.val; rw [if_pos rfl]
  · refine extractStridedSlice_apply _ x0 hs (ix2 p (0 : Fin 1)) (ix2 p (⟨n, hn⟩ : Fin 12)) (fun a => ?_)
    match a with
    | ⟨0, _⟩ => show p.val = 0 + p.val; omega
    | ⟨1, _⟩ => show n = n + 0; omega

/-! ## Twelve scaled copies side by side -/

/-- The twelve pieces of one Kronecker step: piece `n` is the block `z` with each row scaled by column `n` of `x0`. -/
def scaledCopies {N : Nat} (x0 : FVec Ideal ⟨2, ![64, 12]⟩ .f32) (z : FVec Ideal ⟨2, ![64, N]⟩ .f32)
    (hs : ∀ n : Fin 12, (⟨2, ![64, 12]⟩ : Shape).Slices ![0, n.val] ⟨2, ![64, 1]⟩)
    (hb : (⟨2, ![64, 1]⟩ : Shape).Broadcasts ⟨2, ![64, N]⟩) (n : Fin 12) : (⟨2, ![64, N]⟩ : Shape).Idx → EReal :=
  mulf (broadcastTo ⟨2, ![64, N]⟩ (extractStridedSlice ⟨2, ![64, 1]⟩ ![0, n.val] x0 (hs n)) hb) z

/-- Every column offset below twelve leaves room for a one-lane slice of a [64, 12] block. -/
theorem slices_col (n : Fin 12) : (⟨2, ![64, 12]⟩ : Shape).Slices ![0, n.val] ⟨2, ![64, 1]⟩ :=
  ⟨rfl, fun a => by
    match a with
    | ⟨0, _⟩ => show 0 + 64 ≤ 64; omega
    | ⟨1, _⟩ => show n.val + 1 ≤ 12; have := n.isLt; omega⟩

/-- The twelve scaled copies laid side by side along the lanes, read at row `p`, lane `k`: copy `k / N` at lane
    `k % N`, that is `x0[p, k / N] · z[p, k % N]` — one step of the Kronecker recursion. -/
theorem kron_apply {N M : Nat} (x0 : FVec Ideal ⟨2, ![64, 12]⟩ .f32) (z : FVec Ideal ⟨2, ![64, N]⟩ .f32)
    (hs : ∀ n : Fin 12, (⟨2, ![64, 12]⟩ : Shape).Slices ![0, n.val] ⟨2, ![64, 1]⟩)
    (hb : (⟨2, ![64, 1]⟩ : Shape).Broadcasts ⟨2, ![64, N]⟩)
    (hc : Shape.Concatenates ((List.ofFn fun n : Fin 12 =>
      (⟨⟨2, ![64, N]⟩, scaledCopies x0 z hs hb n⟩ : (s : Shape) × (s.Idx → EReal))).map (·.1)) ⟨2, ![64, M]⟩ 1)
    (p : Fin 64) (k : Fin M) (hq : k.val / N < 12) (hr : k.val % N < N) :
    concatenate ⟨2, ![64, M]⟩ 1 (List.ofFn fun n : Fin 12 =>
      (⟨⟨2, ![64, N]⟩, scaledCopies x0 z hs hb n⟩ : (s : Shape) × (s.Idx → EReal))) hc (ix2 p k)
      = x0 (ix2 p (⟨k.val / N, hq⟩ : Fin 12)) * z (ix2 p (⟨k.val % N, hr⟩ : Fin N)) := by
  refine (concatenate_ofFn_apply (t := ⟨2, ![64, M]⟩) (s₁ := ⟨2, ![64, N]⟩) (1 : Fin 2) (fun n : Fin 12 => scaledCopies x0 z hs hb n) hc rfl N rfl (ix2 p k)
    (⟨k.val / N, hq⟩ : Fin 12) rfl (ix2 p (⟨k.val % N, hr⟩ : Fin N)) rfl (fun b hb' => ?_)).trans ?_
  · match b with
    | ⟨0, _⟩ => rfl
    | ⟨1, _⟩ => exact absurd rfl hb'
  · exact scaled_apply x0 z (k.val / N) hq (hs ⟨k.val / N, hq⟩) hb p ⟨k.val % N, hr⟩

end Cert.PolyNet

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.KernelBlock.lean ====
import proofs.«169909_j74904229642683_1_alg».proof.Proof.Gen.KernelIdeal.Frame
import proofs.«169909_j74904229642683_1_alg».proof.Proof.Monomials
import proofs.«169909_j74904229642683_1_alg».proof.Proof.LibPlainDot
import Idealize.ShloMosaic.Lib.ValueLayout

/-!
  What one grid point's body leaves in the output block, read at a row `p` and a channel `q` of the block: the
  polynomial of row `p` of the input block with, as coefficients, column `q` of each (transposed) weight block.

  The body builds the monomial rows degree by degree — each step lays twelve row-scaled copies of the previous block
  side by side — and after each step adds the matrix product of the new block with that degree's weight block. The
  four matrix products into a zero accumulator are plain sums over the contracted lane.
-/

set_option maxRecDepth 16384

open scoped BigOperators

noncomputable section

namespace Cert.KernelIdeal.Block

open Cert.KernelIdeal Cert.KernelIdeal.Gen Idealize.ShloMosaic Idealize.ShloMosaic.ValueIdx Cert.PolyNet

/-- Row `p` of a 64-row input block. -/
abbrev rowOf (x0 : FVec Ideal S64x12 .f32) (p : Fin 64) : Fin 12 → EReal := fun i => x0 (ix2 p i)

/-- The degree-two block: row `p` holds the degree-two monomials of row `p` of the input block. -/
theorem pay3_apply (x0 : FVec Ideal S64x12 .f32) (p : Fin 64) (k : Fin 144) :
    k0_pay3 (F := Ideal) x0 (ix2 p k) = mono2 (rowOf x0 p) k := by
  have hq : k.val / 12 < 12 := by have := k.isLt; omega
  have hr : k.val % 12 < 12 := by omega
  exact kron_apply (N := 12) (M := 144) x0 x0 slices_col Facts₀.broadcasts_S64x1_S64x12
    Facts₀.concatenates_S64x12_S64x12_S64x12_S64x12_S64x12_S64x12_S64x12_S64x12_S64x12_S64x12_S64x12_S64x12_S64x144_d1 p k hq hr

/-- One Kronecker step from a [64, 144] block: row `p`, lane `k` is `x0[p, k / 144] · z[p, k % 144]`. -/
theorem pay6_apply (x0 : FVec Ideal S64x12 .f32) (z : FVec Ideal S64x144 .f32) (p : Fin 64) (k : Fin 1728) :
    k0_pay6 (F := Ideal) x0 z (ix2 p k)
      = x0 (ix2 p (⟨k.val / 144, by have := k.isLt; omega⟩ : Fin 12)) * z (ix2 p (⟨k.val % 144, by omega⟩ : Fin 144)) := by
  have hq : k.val / 144 < 12 := by have := k.isLt; omega
  have hr : k.val % 144 < 144 := by omega
  exact kron_apply (N := 144) (M := 1728) x0 z slices_col Facts₀.broadcasts_S64x1_S64x144
    Facts₀.concatenates_S64x144_S64x144_S64x144_S64x144_S64x144_S64x144_S64x144_S64x144_S64x144_S64x144_S64x144_S64x144_S64x1728_d1 p k hq hr

/-- The degree-zero and degree-one terms: the bias row spread down the rows plus the product with the first weight block. -/
theorem pay2_apply (x0 : FVec Ideal S64x12 .f32) (u0 : FVec Ideal S1x512 .f32) (u1 : FVec Ideal S12x512 .bf16)
    (p : Fin 64) (q : Fin 512) :
    k0_pay2 (F := Ideal) x0 u0 u1 (ix2 p q) = u0 (ix2 (0 : Fin 1) q) + ∑ k : Fin 12, x0 (ix2 p k) * u1 (ix2 k q) := by
  unfold k0_pay2
  show broadcastTo S64x512 (shapeCast S1x512 (shapeCast S1x512 u0 _) _) _ (ix2 p q)
      + FloatOps.matmul dot_S64x12_S12x512_S64x512_1_0_0_1_n_n none (truncf .bf16 x0 _) (shapeCast S12x512 u1 _)
          (constant S64x512 .f32 0x00000000#32) (ix2 p q) = _
  rw [shapeCast_self, shapeCast_self, shapeCast_self]
  congr 1
  · exact broadcastTo_1b_ab_apply u0 _ p q
  · exact Cert.Lib.PlainDot.matmul_zero_apply _ rfl rfl rfl rfl rfl rfl none _ _ p q

/-- The degree-two and degree-three products added to what came before. -/
theorem pay7_apply (x0 : FVec Ideal S64x12 .f32) (acc : FVec Ideal S64x512 .f32) (z : FVec Ideal S64x144 .f32)
    (zb : FVec Ideal S64x144 .bf16) (u2 : FVec Ideal S144x512 .bf16) (u3 : FVec Ideal S1728x512 .bf16)
    (p : Fin 64) (q : Fin 512) :
    k0_pay7 (F := Ideal) x0 acc z zb u2 u3 (ix2 p q)
      = (acc (ix2 p q) + ∑ k : Fin 144, zb (ix2 p k) * u2 (ix2 k q))
        + ∑ k : Fin 1728, k0_pay6 (F := Ideal) x0 z (ix2 p k) * u3 (ix2 k q) := by
  unfold k0_pay7
  show (acc (ix2 p q) + FloatOps.matmul dot_S64x144_S144x512_S64x512_1_0_0_1_n_n none zb u2
          (constant S64x512 .f32 0x00000000#32) (ix2 p q))
      + FloatOps.matmul dot_S64x1728_S1728x512_S64x512_1_0_0_1_n_n none (truncf .bf16 (k0_pay6 (F := Ideal) x0 z) _)
          (shapeCast S1728x512 u3 _) (constant S64x512 .f32 0x00000000#32) (ix2 p q) = _
  rw [shapeCast_self]
  congr 1
  · congr 1
    exact Cert.Lib.PlainDot.matmul_zero_apply _ rfl rfl rfl rfl rfl rfl none _ _ p q
  · exact Cert.Lib.PlainDot.matmul_zero_apply _ rfl rfl rfl rfl rfl rfl none _ _ p q

/-- The last Kronecker step and the degree-four product, added to what came before. -/
theorem pay1_apply (x0 : FVec Ideal S64x12 .f32) (z2 : FVec Ideal S64x144 .f32) (acc : FVec Ideal S64x512 .f32)
    (u4 : FVec Ideal S20736x512 .bf16) (p : Fin 64) (q : Fin 512) :
    k0_pay1 (F := Ideal) x0 (k0_pay6 (F := Ideal) x0 z2) acc (k0_pay8 (F := Ideal) x0 z2) (k0_pay9 (F := Ideal) x0 z2)
        (k0_pay10 (F := Ideal) x0 z2) (k0_pay11 (F := Ideal) x0 z2) u4 (ix2 p q)
      = acc (ix2 p q) + ∑ k : Fin 20736,
          (x0 (ix2 p (⟨k.val / 1728, by have := k.isLt; omega⟩ : Fin 12))
            * k0_pay6 (F := Ideal) x0 z2 (ix2 p (⟨k.val % 1728, by omega⟩ : Fin 1728))) * u4 (ix2 k q) := by
  unfold k0_pay1
  show acc (ix2 p q) + FloatOps.matmul dot_S64x20736_S20736x512_S64x512_1_0_0_1_n_n none
        (truncf .bf16 (concatenate S64x20736 1 (List.ofFn fun n : Fin 12 =>
          (⟨S64x1728, scaledCopies x0 (k0_pay6 (F := Ideal) x0 z2) slices_col Facts₀.broadcasts_S64x1_S64x1728 n⟩ :
            (s : Shape) × (s.Idx → EReal))) _) _)
        (shapeCast S20736x512 u4 _) (constant S64x512 .f32 0x00000000#32) (ix2 p q) = _
  rw [shapeCast_self]
  refine congrArg (acc (ix2 p q) + ·) ?_
  refine (Cert.Lib.PlainDot.matmul_zero_apply _ rfl rfl rfl rfl rfl rfl none _ _ p q).trans
    (Finset.sum_congr rfl fun k _ => ?_)
  refine congrArg (· * u4 (ix2 k q)) ?_
  have hq : k.val / 1728 < 12 := by have := k.isLt; omega
  have hr : k.val % 1728 < 1728 := by omega
  exact kron_apply (N := 1728) (M := 20736) x0 (k0_pay6 (F := Ideal) x0 z2) slices_col Facts₀.broadcasts_S64x1_S64x1728
    Facts₀.concatenates_S64x1728_S64x1728_S64x1728_S64x1728_S64x1728_S64x1728_S64x1728_S64x1728_S64x1728_S64x1728_S64x1728_S64x1728_S64x20736_d1 p k hq hr

/-- The degree-three block built from the degree-two block: row `p` holds the degree-three monomials of row `p`. -/
theorem z3_apply (x0 : FVec Ideal S64x12 .f32) (p : Fin 64) (k : Fin 1728) :
    k0_pay6 (F := Ideal) x0 (k0_pay3 (F := Ideal) x0) (ix2 p k) = mono3 (rowOf x0 p) k := by
  rw [pay6_apply, pay3_apply]
  rfl

/-- What the body stores: the polynomial of the input block's row `p` with column `q` of each weight block. -/
theorem out_apply (x0 : FVec Ideal S64x12 .f32) (u0 : FVec Ideal S1x512 .f32) (u1 : FVec Ideal S12x512 .bf16)
    (u2 : FVec Ideal S144x512 .bf16) (u3 : FVec Ideal S1728x512 .bf16) (u4 : FVec Ideal S20736x512 .bf16)
    (p : Fin 64) (q : Fin 512) :
    out0_6 (F := Ideal) x0 u0 u1 u2 u3 u4 (ix2 p q)
      = poly (rowOf x0 p) (u0 (ix2 (0 : Fin 1) q)) (fun k => u1 (ix2 k q)) (fun k => u2 (ix2 k q))
          (fun k => u3 (ix2 k q)) (fun k => u4 (ix2 k q)) := by
  have hz : (![0, 0] : Fin 2 → Nat) = fun _ => 0 := funext fun a => by fin_cases a <;> rfl
  unfold out0_6
  rw [View.canon_unit_zero hz]
  simp only [View.ld_unit_zero (S := S64x12) hz, View.ld_unit_zero (S := S1x512) hz, View.ld_unit_zero (S := S12x512) hz,
    View.ld_unit_zero (S := S144x512) hz, View.ld_unit_zero (S := S1728x512) hz, View.ld_unit_zero (S := S20736x512) hz]
  rw [pay1_apply, pay7_apply, pay2_apply]
  unfold poly
  refine congrArg₂ (· + ·) (congrArg₂ (· + ·) (congrArg₂ (· + ·) rfl ?_) ?_) ?_
  · refine Finset.sum_congr rfl fun k _ => ?_
    show k0_pay3 (F := Ideal) x0 (ix2 p k) * shapeCast S144x512 u2 _ (ix2 k q) = _
    rw [shapeCast_self, pay3_apply]
  · refine Finset.sum_congr rfl fun k _ => ?_
    rw [z3_apply]
  · refine Finset.sum_congr rfl fun k _ => ?_
    rw [z3_apply]
    rfl

end Cert.KernelIdeal.Block

end
-- ==== Proof.KernelArray.lean ====
import proofs.«169909_j74904229642683_1_alg».proof.Proof.Gen.KernelIdeal.Value
import proofs.«169909_j74904229642683_1_alg».proof.Proof.KernelBlock
import Idealize.ShloMosaic.Lib.StableHlo.Run
import Idealize.ShloMosaic.Lib.ValueLayout

/-!
  From the grid points' blocks to the whole result array.

  Grid point `t` reads rows `64 t … 64 t + 63` of the input and writes the same rows of the result; every point
  reads the whole of each weight array, transposed by the host before the launch (and narrowed, which at the ideal values
  changes nothing). So what point `t` writes is rows `64 t …` of the specification's array, and the 128 blocks cover it.
-/

set_option maxRecDepth 16384

open scoped BigOperators

noncomputable section

namespace Cert.KernelIdeal.Whole

open Cert.KernelIdeal Cert.KernelIdeal.Gen Cert.KernelIdeal.Value Cert.KernelIdeal.Block
open Idealize.ShloMosaic Idealize.ShloMosaic.TcCoe Idealize.SL.Sem Idealize.ShloMosaic.ValueIdx Cert.PolyNet
open Idealize.ShloMosaic.Pipeline (Dat)

variable (m : (ℓ : Loc nD τ sig) → Buf (Elt Ideal) ℓ) (ρ : Dev nD → PrngReg)

/-- The specification's array of the argument arrays as launched. -/
abbrev result (c : Dev nD) : S8192x512.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## The weight arrays as the region finds them: the arguments transposed -/

theorem V_bias (c : Dev nD) (q : Fin 512) :
    (V m c main_v0 : S1x512.Idx → EReal) (ix2 (0 : Fin 1) q) = m ((c : Thread nD τ).loc main_arg1) (ix2 q (0 : Fin 1)) := by
  have e : (V m c main_v0 : S1x512.Idx → EReal)
      = transpose S1x512 [1, 0] (m ((c : Thread nD τ).loc main_arg1)) Facts₀.transposes_S512x1_S1x512_1_0 := by
    dsimp only [Gen.V, Gen.hostOps0]; after_results
  rw [e]
  exact transpose_ix2_apply _ _ (0 : Fin 1) q

theorem V_w1 (c : Dev nD) (k : Fin 12) (q : Fin 512) :
    (V m c main_v2 : S12x512.Idx → EReal) (ix2 k q) = m ((c : Thread nD τ).loc main_arg2) (ix2 q k) := by
  have e : (V m c main_v2 : S12x512.Idx → EReal)
      = truncf (F := Ideal) (φ := .f32) .bf16 (transpose S12x512 [1, 0] (m ((c : Thread nD τ).loc main_arg2)) Facts₀.transposes_S512x12_S12x512_1_0)
          Facts₀.bitsLt_bf16_f32 := by
    dsimp only [Gen.V, Gen.hostOps0]; after_results
  rw [e]
  exact transpose_ix2_apply _ _ k q

theorem V_w2 (c : Dev nD) (k : Fin 144) (q : Fin 512) :
    (V m c main_v4 : S144x512.Idx → EReal) (ix2 k q) = m ((c : Thread nD τ).loc main_arg3) (ix2 q k) := by
  have e : (V m c main_v4 : S144x512.Idx → EReal)
      = truncf (F := Ideal) (φ := .f32) .bf16 (transpose S144x512 [1, 0] (m ((c : Thread nD τ).loc main_arg3)) Facts₀.transposes_S512x144_S144x512_1_0)
          Facts₀.bitsLt_bf16_f32 := by
    dsimp only [Gen.V, Gen.hostOps0]; after_results
  rw [e]
  exact transpose_ix2_apply _ _ k q

theorem V_w3 (c : Dev nD) (k : Fin 1728) (q : Fin 512) :
    (V m c main_v6 : S1728x512.Idx → EReal) (ix2 k q) = m ((c : Thread nD τ).loc main_arg4) (ix2 q k) := by
  have e : (V m c main_v6 : S1728x512.Idx → EReal)
      = truncf (F := Ideal) (φ := .f32) .bf16 (transpose S1728x512 [1, 0] (m ((c : Thread nD τ).loc main_arg4)) Facts₀.transposes_S512x1728_S1728x512_1_0)
          Facts₀.bitsLt_bf16_f32 := by
    dsimp only [Gen.V, Gen.hostOps0]; after_results
  rw [e]
  exact transpose_ix2_apply _ _ k q

theorem V_w4 (c : Dev nD) (k : Fin 20736) (q : Fin 512) :
    (V m c main_v8 : S20736x512.Idx → EReal) (ix2 k q) = m ((c : Thread nD τ).loc main_arg5) (ix2 q k) := by
  have e : (V m c main_v8 : S20736x512.Idx → EReal)
      = truncf (F := Ideal) (φ := .f32) .bf16 (transpose S20736x512 [1, 0] (m ((c : Thread nD τ).loc main_arg5)) Facts₀.transposes_S512x20736_S20736x512_1_0)
          Facts₀.bitsLt_bf16_f32 := by
    dsimp only [Gen.V, Gen.hostOps0]; after_results
  rw [e]
  exact transpose_ix2_apply _ _ k q

/-! ## What one point writes back -/

/-- A block whose row `p` is row `b` of the array `X`, beside weight blocks that are the transposes of `W0 … W4`: the
    body's result at row `p`, channel `q` is the specification's value at row `b`, channel `q`. -/
theorem block_eq (x0 : FVec Ideal S64x12 .f32) (u0 : FVec Ideal S1x512 .f32) (u1 : FVec Ideal S12x512 .bf16)
    (u2 : FVec Ideal S144x512 .bf16) (u3 : FVec Ideal S1728x512 .bf16) (u4 : FVec Ideal S20736x512 .bf16)
    (X : S8192x12.Idx → EReal) (W0 : S512x1.Idx → EReal) (W1 : S512x12.Idx → EReal) (W2 : S512x144.Idx → EReal)
    (W3 : S512x1728.Idx → EReal) (W4 : S512x20736.Idx → EReal) (p : Fin 64) (q : Fin 512) (b : Fin 8192)
    (hx : ∀ i : Fin 12, x0 (ix2 p i) = X (ix2 b i))
    (h0 : u0 (ix2 (0 : Fin 1) q) = W0 (ix2 q (0 : Fin 1)))
    (h1 : ∀ k : Fin 12, u1 (ix2 k q) = W1 (ix2 q k)) (h2 : ∀ k : Fin 144, u2 (ix2 k q) = W2 (ix2 q k))
    (h3 : ∀ k : Fin 1728, u3 (ix2 k q) = W3 (ix2 q k)) (h4 : ∀ k : Fin 20736, u4 (ix2 k q) = W4 (ix2 q k)) :
    out0_6 (F := Ideal) x0 u0 u1 u2 u3 u4 (ix2 p q) = G X W0 W1 W2 W3 W4 (ix2 b q) := by
  have hr : rowOf x0 p = fun i => X (ix2 b i) := funext hx
  rw [out_apply, G_ix2, hr, h0, funext h1, funext h2, funext h3, funext h4]

/-- The printed index maps over the grid: the input and the result move one block of rows per point, the weights
    stay at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Point `t` writes back rows `64 t … 64 t + 63` of the specification's array. -/
theorem flushed_eq (c : Dev nD) (t : Fin cfg0.N) :
    (dats m 0 c).flushed 6 t = ((cfg0.win 6).blk t).view.read (Elt Ideal) (result m c) := by
  rw [Value.flushed6]
  obtain ⟨a00, a01, a10, a11, a20, a21, a30, a31, a40, a41, a50, a51, a60, a61⟩ := idx_facts t
  have hN : t.val < 128 := lt_of_lt_of_eq t.isLt (show cfg0.N = 128 from N_0)
  refine funext fun (j : S64x512.Idx) => ?_
  obtain ⟨p, q, rfl⟩ : ∃ (p : Fin 64) (q : Fin 512), j = ix2 p q := ⟨j 0, j 1, eq_ix2 j⟩
  have hp := p.isLt
  have hq := q.isLt
  have hb : t.val * 64 + p.val < 8192 := by omega
  show out0_6 (F := Ideal) (iblk m c 0 t) (iblk m c 1 t) (iblk m c 2 t) (iblk m c 3 t) (iblk m c 4 t) (iblk m c 5 t) (ix2 p q)
      = result m c (((cfg0.win 6).blk t).view.emb (ix2 p q))
  have eb : ((cfg0.win 6).blk t).view.emb (ix2 p q) = ix2 (⟨t.val * 64 + p.val, hb⟩ : Fin 8192) q := by
    funext a; apply Fin.ext
    match a with
    | ⟨0, _⟩ => show win0_6.index t (0 : Fin 2) * 64 + 1 * p.val = t.val * 64 + p.val; rw [a60]; omega
    | ⟨1, _⟩ => show win0_6.index t (1 : Fin 2) * 512 + 1 * q.val = q.val; rw [a61]; omega
  rw [eb]
  refine block_eq (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    p q (⟨t.val * 64 + p.val, hb⟩ : Fin 8192) (fun i => ?_) ?_ (fun k => ?_) (fun k => ?_) (fun k => ?_) (fun k => ?_)
  · show V m c main_arg0 (((cfg0.win 0).blk t).view.emb (ix2 p i)) = _
    rw [V_main_arg0]
    refine congrArg _ (funext fun a => Fin.ext ?_)
    match a with
    | ⟨0, _⟩ => show win0_0.index t (0 : Fin 2) * 64 + 1 * p.val = t.val * 64 + p.val; rw [a00]; omega
    | ⟨1, _⟩ => show win0_0.index t (1 : Fin 2) * 12 + 1 * i.val = i.val; rw [a01]; omega
  · have e : ((cfg0.win 1).blk t).view.emb (ix2 (0 : Fin 1) q) = ix2 (0 : Fin 1) q := by
      funext a; apply Fin.ext
      match a with
      | ⟨0, _⟩ => show win0_1.index t (0 : Fin 2) * 1 + 1 * 0 = 0; rw [a10]
      | ⟨1, _⟩ => show win0_1.index t (1 : Fin 2) * 512 + 1 * q.val = q.val; rw [a11]; omega
    show V m c main_v0 (((cfg0.win 1).blk t).view.emb (ix2 (0 : Fin 1) q)) = _
    rw [e]
    exact V_bias m c q
  · have e : ((cfg0.win 2).blk t).view.emb (ix2 k q) = ix2 k q := by
      funext a; apply Fin.ext
      match a with
      | ⟨0, _⟩ => show win0_2.index t (0 : Fin 2) * 12 + 1 * k.val = k.val; rw [a20]; omega
      | ⟨1, _⟩ => show win0_2.index t (1 : Fin 2) * 512 + 1 * q.val = q.val; rw [a21]; omega
    show V m c main_v2 (((cfg0.win 2).blk t).view.emb (ix2 k q)) = _
    rw [e]
    exact V_w1 m c k q
  · have e : ((cfg0.win 3).blk t).view.emb (ix2 k q) = ix2 k q := by
      funext a; apply Fin.ext
      match a with
      | ⟨0, _⟩ => show win0_3.index t (0 : Fin 2) * 144 + 1 * k.val = k.val; rw [a30]; omega
      | ⟨1, _⟩ => show win0_3.index t (1 : Fin 2) * 512 + 1 * q.val = q.val; rw [a31]; omega
    show V m c main_v4 (((cfg0.win 3).blk t).view.emb (ix2 k q)) = _
    rw [e]
    exact V_w2 m c k q
  · have e : ((cfg0.win 4).blk t).view.emb (ix2 k q) = ix2 k q := by
      funext a; apply Fin.ext
      match a with
      | ⟨0, _⟩ => show win0_4.index t (0 : Fin 2) * 1728 + 1 * k.val = k.val; rw [a40]; omega
      | ⟨1, _⟩ => show win0_4.index t (1 : Fin 2) * 512 + 1 * q.val = q.val; rw [a41]; omega
    show V m c main_v6 (((cfg0.win 4).blk t).view.emb (ix2 k q)) = _
    rw [e]
    exact V_w3 m c k q
  · have e : ((cfg0.win 5).blk t).view.emb (ix2 k q) = ix2 k q := by
      funext a; apply Fin.ext
      match a with
      | ⟨0, _⟩ => show win0_5.index t (0 : Fin 2) * 20736 + 1 * k.val = k.val; rw [a50]; omega
      | ⟨1, _⟩ => show win0_5.index t (1 : Fin 2) * 512 + 1 * q.val = q.val; rw [a51]; omega
    show V m c main_v8 (((cfg0.win 5).blk t).view.emb (ix2 k q)) = _
    rw [e]
    exact V_w4 m c k q

/-! ## The blocks cover the array -/

/-- An index of the result array is in point `t`'s block iff each coordinate is in the block's range on its axis. -/
theorem mem_blk (t : Fin cfg0.N) (i : S8192x512.Idx) :
    i ∈ ((cfg0.win 6).blk t).view.set ↔ ∀ a : Fin 2, win0_6.index t a * S64x512.size a ≤ (i a).val
      ∧ (i a).val < win0_6.index t a * S64x512.size a + S64x512.size a := by
  show i ∈ ((View.whole main_v9).slice (win0_6.rect t)).set ↔ _
  rw [View.set_slice_whole, Rect.mem_set_unit]
  exact Iff.rfl

/-- Row `r` lies in the block of point `r / 64`. -/
theorem cover (i : S8192x512.Idx) :
    ∃ t : Fin cfg0.N, (cfg0.win 6).flush t = true ∧ i ∈ ((cfg0.win 6).blk t).view.set := by
  have hi0 : (i 0).val < 8192 := (i 0).isLt
  have hi1 : (i 1).val < 512 := (i 1).isLt
  have hN : cfg0.N = 128 := N_0
  let t : Fin cfg0.N := ⟨(i 0).val / 64, by rw [hN]; omega⟩
  obtain ⟨-, -, -, -, -, -, -, -, -, -, -, -, a60, a61⟩ := idx_facts t
  refine ⟨t, flush0_6 t, ?_⟩
  rw [mem_blk]
  intro a
  match a with
  | ⟨0, _⟩ =>
    show win0_6.index t (0 : Fin 2) * 64 ≤ (i 0).val ∧ (i 0).val < win0_6.index t (0 : Fin 2) * 64 + 64
    rw [a60]
    show (i 0).val / 64 * 64 ≤ (i 0).val ∧ (i 0).val < (i 0).val / 64 * 64 + 64
    omega
  | ⟨1, _⟩ =>
    show win0_6.index t (1 : Fin 2) * 512 ≤ (i 1).val ∧ (i 1).val < win0_6.index t (1 : Fin 2) * 512 + 512
    rw [a61]
    omega

/-- The result array after the run is the specification's array. -/
theorem final (c : Dev nD) : (dats m 0 c).arrAt 6 cfg0.N = result m c :=
  (dats m 0 c).arrAt_eq_of_cover 6 (result m c) (fun t _ => flushed_eq m c t) cover

/-- The run, read: the result array at the specification's function of the arguments, the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.RefValue.lean ====
import proofs.«169909_j74904229642683_1_alg».proof.Proof.Gen.ReferenceIdeal.Read
import proofs.«169909_j74904229642683_1_alg».proof.Proof.Monomials
import Idealize.ShloMosaic.Lib.IdealHost

/-!
  The reference's result, read at a row `b` and a channel `o`.

  The reference works on the transposed input: row `i` of `zT` is column `i` of the input. One Kronecker step is an
  outer product over two leading axes reshaped into one, so row `k` of the next monomial array is row `k / cols` of
  `zT` times row `k % cols` of the previous array, column by column: the monomial recursion of the specification, for
  the input's row `b` in column `b`. Each degree adds a matrix product of a weight array with the monomial array; the
  degree-zero term is the product of the bias column with a row of ones.
-/

set_option maxRecDepth 16384

open scoped BigOperators

noncomputable section

namespace Cert.ReferenceIdeal.RefValue

open Cert.ReferenceIdeal Cert.ReferenceIdeal.Read Idealize.ShloMosaic Idealize.ShloMosaic.ValueIdx Cert.PolyNet

/-- Row `b` of the input array. -/
abbrev rowOf (x0 : FVec Ideal S8192x12 .f32) (b : Fin 8192) : Fin 12 → EReal := fun i => x0 (ix2 b i)

/-- The transposed input at row `i`, column `b` is the input at row `b`, column `i`. -/
theorem xT_apply (x0 : FVec Ideal S8192x12 .f32) (i : Fin 12) (b : Fin 8192) :
    val_main_v0 (F := Ideal) x0 (ix2 i b) = x0 (ix2 b i) := by
  rw [val_main_v0_apply]
  exact congrArg x0 (funext fun a => match a with | ⟨0, _⟩ => rfl | ⟨1, _⟩ => rfl)

/-- The degree-two monomial array: row `k`, column `b` is the degree-two monomial `k` of the input's row `b`. -/
theorem z2_apply (x0 : FVec Ideal S8192x12 .f32) (k : Fin 144) (b : Fin 8192) :
    val_main_v10 (F := Ideal) x0 (ix2 k b) = mono2 (rowOf x0 b) k := by
  have hk := k.isLt
  have hb := b.isLt
  have hq : k.val / 12 < 12 := by omega
  have hr : k.val % 12 < 12 := by omega
  have e : idx_main_v10 (ix2 k b) = ix3 (⟨k.val / 12, hq⟩ : Fin 12) (⟨k.val % 12, hr⟩ : Fin 12) b := by
    funext a; apply Fin.ext
    match a with
    | ⟨0, _⟩ => show (k.val * 8192 + b.val) / 98304 = k.val / 12; omega
    | ⟨1, _⟩ => show (k.val * 8192 + b.val) / 8192 % 12 = k.val % 12; omega
    | ⟨2, _⟩ => show (k.val * 8192 + b.val) % 8192 = b.val; omega
  have e1 : idx_main_v5 (idx_main_v7 (ix3 (⟨k.val / 12, hq⟩ : Fin 12) (⟨k.val % 12, hr⟩ : Fin 12) b))
      = ix2 (⟨k.val / 12, hq⟩ : Fin 12) b := by
    funext a; match a with | ⟨0, _⟩ => rfl | ⟨1, _⟩ => rfl
  have e2 : idx_main_v6 (idx_main_v8 (ix3 (⟨k.val / 12, hq⟩ : Fin 12) (⟨k.val % 12, hr⟩ : Fin 12) b))
      = ix2 (⟨k.val % 12, hr⟩ : Fin 12) b := by
    funext a; match a with | ⟨0, _⟩ => rfl | ⟨1, _⟩ => rfl
  rw [val_main_v10_apply, e, val_main_v9_apply, val_main_v7_apply, val_main_v8_apply, val_main_v5_apply,
    val_main_v6_apply, e1, e2, xT_apply, xT_apply]
  rfl

/-- The degree-three monomial array. -/
theorem z3_apply (x0 : FVec Ideal S8192x12 .f32) (k : Fin 1728) (b : Fin 8192) :
    val_main_v18 (F := Ideal) x0 (ix2 k b) = mono3 (rowOf x0 b) k := by
  have hk := k.isLt
  have hb := b.isLt
  have hq : k.val / 144 < 12 := by omega
  have hr : k.val % 144 < 144 := by omega
  have e : idx_main_v18 (ix2 k b) = ix3 (⟨k.val / 144, hq⟩ : Fin 12) (⟨k.val % 144, hr⟩ : Fin 144) b := by
    funext a; apply Fin.ext
    match a with
    | ⟨0, _⟩ => show (k.val * 8192 + b.val) / 1179648 = k.val / 144; omega
    | ⟨1, _⟩ => show (k.val * 8192 + b.val) / 8192 % 144 = k.val % 144; omega
    | ⟨2, _⟩ => show (k.val * 8192 + b.val) % 8192 = b.val; omega
  have e1 : idx_main_v13 (idx_main_v15 (ix3 (⟨k.val / 144, hq⟩ : Fin 12) (⟨k.val % 144, hr⟩ : Fin 144) b))
      = ix2 (⟨k.val / 144, hq⟩ : Fin 12) b := by
    funext a; match a with | ⟨0, _⟩ => rfl | ⟨1, _⟩ => rfl
  have e2 : idx_main_v14 (idx_main_v16 (ix3 (⟨k.val / 144, hq⟩ : Fin 12) (⟨k.val % 144, hr⟩ : Fin 144) b))
      = ix2 (⟨k.val % 144, hr⟩ : Fin 144) b := by
    funext a; match a with | ⟨0, _⟩ => rfl | ⟨1, _⟩ => rfl
  rw [val_main_v18_apply, e, val_main_v17_apply, val_main_v15_apply, val_main_v16_apply, val_main_v13_apply,
    val_main_v14_apply, e1, e2, xT_apply, z2_apply]
  rfl

/-- The degree-four monomial array. -/
theorem z4_apply (x0 : FVec Ideal S8192x12 .f32) (k : Fin 20736) (b : Fin 8192) :
    val_main_v26 (F := Ideal) x0 (ix2 k b) = mono4 (rowOf x0 b) k := by
  have hk := k.isLt
  have hb := b.isLt
  have hq : k.val / 1728 < 12 := by omega
  have hr : k.val % 1728 < 1728 := by omega
  have e : idx_main_v26 (ix2 k b) = ix3 (⟨k.val / 1728, hq⟩ : Fin 12) (⟨k.val % 1728, hr⟩ : Fin 1728) b := by
    funext a; apply Fin.ext
    match a with
    | ⟨0, _⟩ => show (k.val * 8192 + b.val) / 14155776 = k.val / 1728; omega
    | ⟨1, _⟩ => show (k.val * 8192 + b.val) / 8192 % 1728 = k.val % 1728; omega
    | ⟨2, _⟩ => show (k.val * 8192 + b.val) % 8192 = b.val; omega
  have e1 : idx_main_v21 (idx_main_v23 (ix3 (⟨k.val / 1728, hq⟩ : Fin 12) (⟨k.val % 1728, hr⟩ : Fin 1728) b))
      = ix2 (⟨k.val / 1728, hq⟩ : Fin 12) b := by
    funext a; match a with | ⟨0, _⟩ => rfl | ⟨1, _⟩ => rfl
  have e2 : idx_main_v22 (idx_main_v24 (ix3 (⟨k.val / 1728, hq⟩ : Fin 12) (⟨k.val % 1728, hr⟩ : Fin 1728) b))
      = ix2 (⟨k.val % 1728, hr⟩ : Fin 1728) b := by
    funext a; match a with | ⟨0, _⟩ => rfl | ⟨1, _⟩ => rfl
  rw [val_main_v26_apply, e, val_main_v25_apply, val_main_v23_apply, val_main_v24_apply, val_main_v21_apply,
    val_main_v22_apply, e1, e2, xT_apply, z3_apply]
  rfl

/-- The reference's result at row `b`, channel `o` is the polynomial of the input's row `b` with the coefficient rows `o`:
    the bias times one is the bias, and each product `w · z` is the specification's `z · w`. -/
theorem result_apply (x0 : FVec Ideal S8192x12 .f32) (x1 : FVec Ideal S512x1 .f32) (x2 : FVec Ideal S512x12 .f32)
    (x3 : FVec Ideal S512x144 .f32) (x4 : FVec Ideal S512x1728 .f32) (x5 : FVec Ideal S512x20736 .f32)
    (b : Fin 8192) (o : Fin 512) :
    val_main_v29 (F := Ideal) x0 x1 x2 x3 x4 x5 (ix2 b o) = G x0 x1 x2 x3 x4 x5 (ix2 b o) := by
  have ei : idx_main_v29 (ix2 b o) = ix2 o b := funext fun a => match a with | ⟨0, _⟩ => rfl | ⟨1, _⟩ => rfl
  have el2 : ∀ k : Fin 1, lidx_main_v2 (ix2 o b) k = ix2 o k := fun k =>
    funext fun a => match a with | ⟨0, _⟩ => rfl | ⟨1, _⟩ => rfl
  have el3 : ∀ k : Fin 12, lidx_main_v3 (ix2 o b) k = ix2 o k := fun k =>
    funext fun a => match a with | ⟨0, _⟩ => rfl | ⟨1, _⟩ => rfl
  have er3 : ∀ k : Fin 12, ridx_main_v3 (ix2 o b) k = ix2 k b := fun k =>
    funext fun a => match a with | ⟨0, _⟩ => rfl | ⟨1, _⟩ => rfl
  have el11 : ∀ k : Fin 144, lidx_main_v11 (ix2 o b) k = ix2 o k := fun k =>
    funext fun a => match a with | ⟨0, _⟩ => rfl | ⟨1, _⟩ => rfl
  have er11 : ∀ k : Fin 144, ridx_main_v11 (ix2 o b) k = ix2 k b := fun k =>
    funext fun a => match a with | ⟨0, _⟩ => rfl | ⟨1, _⟩ => rfl
  have el19 : ∀ k : Fin 1728, lidx_main_v19 (ix2 o b) k = ix2 o k := fun k =>
    funext fun a => match a with | ⟨0, _⟩ => rfl | ⟨1, _⟩ => rfl
  have er19 : ∀ k : Fin 1728, ridx_main_v19 (ix2 o b) k = ix2 k b := fun k =>
    funext fun a => match a with | ⟨0, _⟩ => rfl | ⟨1, _⟩ => rfl
  have el27 : ∀ k : Fin 20736, lidx_main_v27 (ix2 o b) k = ix2 o k := fun k =>
    funext fun a => match a with | ⟨0, _⟩ => rfl | ⟨1, _⟩ => rfl
  have er27 : ∀ k : Fin 20736, ridx_main_v27 (ix2 o b) k = ix2 k b := fun k =>
    funext fun a => match a with | ⟨0, _⟩ => rfl | ⟨1, _⟩ => rfl
  rw [val_main_v29_apply, ei, val_main_v28_apply, val_main_v20_apply, val_main_v12_apply, val_main_v4_apply,
    val_main_v2_apply, val_main_v3_apply, val_main_v11_apply, val_main_v19_apply, val_main_v27_apply, G_ix2]
  unfold poly
  simp only [Ideal.addf_def]
  refine congrArg₂ (· + ·) (congrArg₂ (· + ·) (congrArg₂ (· + ·) (congrArg₂ (· + ·) ?_ ?_) ?_) ?_) ?_
  · rw [Fin.sum_univ_one, el2, val_main_v1_apply, val_main_cst_apply]
    show x1 (ix2 o (0 : Fin 1)) * Ideal.ofBits .f32 0x3F800000#32 = _
    rw [Ideal.ofBits_one_f32, mul_one]
  · refine Finset.sum_congr rfl fun k _ => ?_
    rw [el3, er3, xT_apply, mul_comm]
  · refine Finset.sum_congr rfl fun k _ => ?_
    rw [el11, er11, z2_apply, mul_comm]
  · refine Finset.sum_congr rfl fun k _ => ?_
    rw [el19, er19, z3_apply, mul_comm]
  · refine Finset.sum_congr rfl fun k _ => ?_
    rw [el27, er27, z4_apply, mul_comm]

/-- The reference's result array is the specification's function of the argument arrays. -/
theorem result_eq (x0 : FVec Ideal S8192x12 .f32) (x1 : FVec Ideal S512x1 .f32) (x2 : FVec Ideal S512x12 .f32)
    (x3 : FVec Ideal S512x144 .f32) (x4 : FVec Ideal S512x1728 .f32) (x5 : FVec Ideal S512x20736 .f32) :
    val_main_v29 (F := Ideal) x0 x1 x2 x3 x4 x5 = G x0 x1 x2 x3 x4 x5 := by
  funext j
  obtain ⟨b, o, rfl⟩ : ∃ (b : Fin 8192) (o : Fin 512), j = ix2 b o := ⟨j 0, j 1, eq_ix2 j⟩
  exact result_apply x0 x1 x2 x3 x4 x5 b o

end Cert.ReferenceIdeal.RefValue

end
-- ==== Proof.lean ====
/-
  A degree-four polynomial network over rows of twelve inputs, 512 output channels.

  For a row `r` of the input the monomial rows are built by the Kronecker recursion
  `z₁ = r`, `z_{n+1}[i · |z_n| + j] = r[i] · z_n[j]`, and the result for channel `o` is
  `w0[o] + Σ z₁·w1[o,·] + Σ z₂·w2[o,·] + Σ z₃·w3[o,·] + Σ z₄·w4[o,·]`, the degrees added in that order
  (Proof/Monomials.lean).

  The kernel works on blocks of 64 rows, batch-major: each step lays twelve row-scaled copies of the previous
  monomial block side by side and multiplies the new block into the host-transposed weight of that degree
  (Proof/KernelBlock.lean); the 128 blocks tile the result (Proof/KernelArray.lean). The reference works on the
  transposed input, forms each step as an outer product reshaped to two axes, multiplies each weight into it and
  transposes the sum back (Proof/RefValue.lean). Read at one row and one channel both are the polynomial above:
  the same sums over the same index in the same order, the factors of each product swapped, and the reference's bias
  multiplied by a row of ones. Nothing beyond commutativity of the product and `x · 1 = x` on the extended reals is
  used, so the inputs' finiteness is never opened. A change of float format is the identity at the ideal values, and
  no operation of the kernel is rewritten for the ideal reading, so the word-level kernel's idealization claim is trivial.
-/
import proofs.«169909_j74904229642683_1_alg».proof.Defs
import proofs.«169909_j74904229642683_1_alg».proof.Proof.Gen.Kernel
import proofs.«169909_j74904229642683_1_alg».proof.Proof.Gen.Kernel.Skeleton
import proofs.«169909_j74904229642683_1_alg».proof.Proof.Gen.Kernel.Launch
import proofs.«169909_j74904229642683_1_alg».proof.Proof.Gen.Kernel.Points
import proofs.«169909_j74904229642683_1_alg».proof.Proof.Gen.Kernel.Frame
import proofs.«169909_j74904229642683_1_alg».proof.Proof.Gen.KernelIdeal
import proofs.«169909_j74904229642683_1_alg».proof.Proof.Gen.KernelIdeal.Skeleton
import proofs.«169909_j74904229642683_1_alg».proof.Proof.Gen.KernelIdeal.Launch
import proofs.«169909_j74904229642683_1_alg».proof.Proof.Gen.KernelIdeal.Points
import proofs.«169909_j74904229642683_1_alg».proof.Proof.Gen.KernelIdeal.Frame
import proofs.«169909_j74904229642683_1_alg».proof.Proof.Gen.ReferenceIdeal
import proofs.«169909_j74904229642683_1_alg».proof.Proof.Gen.Pre_finite_inputs
import proofs.«169909_j74904229642683_1_alg».proof.Proof.Gen.KernelIdeal.Value
import proofs.«169909_j74904229642683_1_alg».proof.Proof.Gen.ReferenceIdeal.Run
import proofs.«169909_j74904229642683_1_alg».proof.Proof.Gen.ReferenceIdeal.Read
import proofs.«169909_j74904229642683_1_alg».proof.Proof.KernelArray
import proofs.«169909_j74904229642683_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification's array of the (agreeing) arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
